-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8 : Shape := ⟨1, ![8]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x3 .f32) (main_arg1 : FVec F S8x4096x3 .f32) (main_arg2 : FVec F S8 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x4096x3 : Shape := ⟨3, ![8, 4096, 3]⟩
abbrev S8 : Shape := ⟨1, ![8]⟩
abbrev S8x3x4096 : Shape := ⟨3, ![8, 3, 4096]⟩
abbrev S8x1x1 : Shape := ⟨3, ![8, 1, 1]⟩
abbrev S1x4096x3 : Shape := ⟨3, ![1, 4096, 3]⟩
abbrev S1x3x4096 : Shape := ⟨3, ![1, 3, 4096]⟩
abbrev S1x1x1 : Shape := ⟨3, ![1, 1, 1]⟩
abbrev S3x4096 : Shape := ⟨2, ![3, 4096]⟩
abbrev S4096 : Shape := ⟨1, ![4096]⟩
abbrev S1x4096 : Shape := ⟨2, ![1, 4096]⟩
abbrev S1x1 : Shape := ⟨2, ![1, 1]⟩
abbrev S1x512x3 : Shape := ⟨3, ![1, 512, 3]⟩
abbrev S512x3 : Shape := ⟨2, ![512, 3]⟩
abbrev S512 : Shape := ⟨1, ![512]⟩
abbrev S512x1 : Shape := ⟨2, ![512, 1]⟩
abbrev S512x4096 : Shape := ⟨2, ![512, 4096]⟩
abbrev S1 : Shape := ⟨1, ![1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x3x4096, .f32⟩
  | .hbm, ⟨4, _⟩ => ⟨S8x1x1, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x4096x3_S8x3x4096_0_2_1 : S8x4096x3.Transposes [0, 2, 1] S8x3x4096
  shapeCasts_S8_S8x1x1 : S8.ShapeCasts S8x1x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  inb_S1x4096x3_S1x512x3_0_0_0 : ∀ a, (![0, 0, 0] : Fin 3 → Nat) a + S1x512x3.size a ≤ S1x4096x3.size a
  h_S1x512x3 : 0 < S1x512x3.numel
  shapeCasts_S1x512x3_S512x3 : S1x512x3.ShapeCasts S512x3
  reduces_S512x3_S512 : S512x3.Reduces [1] S512
  shapeCasts_S512_S512x1 : S512.ShapeCasts S512x1
  broadcasts_S512x1_S512x4096 : S512x1.Broadcasts S512x4096
  broadcasts_S1x4096_S512x4096 : S1x4096.Broadcasts S512x4096
  reduces_S512x4096_S512 : S512x4096.Reduces [1] S512
  reduces_S512x1_S1 : S512x1.Reduces [0] S1
  shapeCasts_S1_S1x1 : S1.ShapeCasts S1x1
  inb_S1x4096x3_S1x512x3_0_512_0 : ∀ a, (![0, 512, 0] : Fin 3 → Nat) a + S1x512x3.size a ≤ S1x4096x3.size a
  inb_S1x4096x3_S1x512x3_0_1024_0 : ∀ a, (![0, 1024, 0] : Fin 3 → Nat) a + S1x512x3.size a ≤ S1x4096x3.size a
  inb_S1x4096x3_S1x512x3_0_1536_0 : ∀ a, (![0, 1536, 0] : Fin 3 → Nat) a + S1x512x3.size a ≤ S1x4096x3.size a
  inb_S1x4096x3_S1x512x3_0_2048_0 : ∀ a, (![0, 2048, 0] : Fin 3 → Nat) a + S1x512x3.size a ≤ S1x4096x3.size a
  inb_S1x4096x3_S1x512x3_0_2560_0 : ∀ a, (![0, 2560, 0] : Fin 3 → Nat) a + S1x512x3.size a ≤ S1x4096x3.size a
  inb_S1x4096x3_S1x512x3_0_3072_0 : ∀ a, (![0, 3072, 0] : Fin 3 → Nat) a + S1x512x3.size a ≤ S1x4096x3.size a
  inb_S1x4096x3_S1x512x3_0_3584_0 : ∀ a, (![0, 3584, 0] : Fin 3 → Nat) a + S1x512x3.size a ≤ S1x4096x3.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S8x1x1_S8 : S8x1x1.ShapeCasts S8
  reducesTo_S8_S_d0 : S8.ReducesTo [0] S_
  h_S_ : 0 < S_.numel
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S8 : Shape := ⟨1, ![8]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  Chamfer loss of one batch, as mathematics over the extended reals.

  Two clouds of 4096 points in three dimensions, `P` and `Q`. The squared distance from point `k` of `P` to point
  `j` of `Q` is taken in its expanded form |p|² + |q|² − 2·(p·q); the nearest squared distance of `k` is the least
  of these over `j`, folded from +∞; the batch's loss is the mean of the nearest squared distances over `k`,
  times the batch's weight. One program divides the sum over all 4096 points by 4096; the other adds up eight sums
  over consecutive runs of 512 points, starting from zero, and multiplies by 2⁻¹². The two agree on every extended
  real: addition there is commutative and associative, and dividing by a nonzero real is multiplying by its
  reciprocal, at the infinities too.
-/
import Idealize.ShloMosaic.PureOps.Ideal
import Idealize.ShloMosaic.PureOps.Ideal.Laws

noncomputable section

namespace Cert.Chamfer

open Idealize.ShloMosaic

/-- The literals of the two programs, kept as their words: 2, +∞, 0, 4096 and 2⁻¹². -/
abbrev two : EReal := Ideal.ofBits .f32 0x40000000#32
abbrev top : EReal := Ideal.ofBits .f32 0x7F800000#32
abbrev zero : EReal := Ideal.ofBits .f32 0x00000000#32
abbrev c4096 : EReal := Ideal.ofBits .f32 0x45800000#32
abbrev cInv4096 : EReal := Ideal.ofBits .f32 0x39800000#32

variable (P Q : Fin 4096 → Fin 3 → EReal)

/-- |p_k|² + |q_j|² − 2·(p_k · q_j). -/
def sqDist (k j : Fin 4096) : EReal :=
  ((∑ d : Fin 3, P k d * P k d) + ∑ d : Fin 3, Q j d * Q j d) - two * ∑ d : Fin 3, P k d * Q j d

/-- The least squared distance from point `k` of `P` to a point of `Q`, folded from +∞. -/
def nearest (k : Fin 4096) : EReal :=
  (Finset.univ : Finset (Fin 4096)).fold min top (fun j => sqDist P Q k j)

/-- The mean of the nearest squared distances, as a quotient by 4096, times the weight. -/
def meanTimes (w : EReal) : EReal :=
  Ideal.div (∑ k : Fin 4096, nearest P Q k) c4096 * w

/-- The sum of the nearest squared distances over the `q`-th run of 512 points. -/
def runSum (q : Fin 8) : EReal :=
  ∑ k : Fin 512, nearest P Q ⟨512 * q.val + k.val, by have := q.isLt; have := k.isLt; omega⟩

/-- Eight runs added up from zero, in order, scaled by 2⁻¹², times the weight. -/
def runsTimes (w : EReal) : EReal :=
  ((((((((zero + runSum P Q 0) + runSum P Q 1) + runSum P Q 2) + runSum P Q 3) + runSum P Q 4) + runSum P Q 5)
    + runSum P Q 6) + runSum P Q 7) * cInv4096 * w

end Cert.Chamfer

end
-- ==== Proof.LibAxisFolds.lean ====
/-
  A reduction over ONE axis of a vector of extended reals, read at a result index as a fold or a sum
  over `Fin n` of a function the caller names: the minimum-reductions of a kernel
  (`vector.multi_reduction <minimumf>`) and of a host program (`stablehlo.reduce` with a minimum body)
  as `Finset.fold min` from the initial value, and a kernel's `<add>` reduction as a `∑`. The extent
  `n` is a variable equated with the reduced axis's size, so the statements apply unchanged at any
  literal shape: the index set of the fold or sum is `Fin n` for the literal `n`.
-/
import Idealize.ShloMosaic.PureOps.Ideal.Laws

namespace Cert.LibAxisFolds

open Idealize.ShloMosaic

variable {s t : Shape} {a : Fin s.rank} {φ : FTy}

/-- A host minimum-reduction over one axis, at `j`: the fold of `min` from the initial value's element
    over the reduced axis's coordinates, each read as the caller's `f`. -/
theorem hostReduce_min_single {u : Shape} (x : FVec Ideal s φ) (init : u.Idx → Ideal φ) (h' : s.ReducesTo [a] t)
    (h : s.Reduces [a] t) (hu : 0 < u.numel) (j : t.Idx) (n : ℕ) (hn : s.size a = n) (f : Fin n → EReal)
    (hf : ∀ k : Fin (s.size a), x (h.lift j k) = f (k.cast hn)) :
    Host.reduce FloatOps.minimumf x init h' hu j
      = (Finset.univ : Finset (Fin n)).fold min (init (Shape.Idx.first hu)) f := by
  subst hn
  rw [Host.reduce_eq_fold_single FloatOps.minimumf x init h' h hu j]
  have e : (x ∘ h.lift j) = f := funext fun k => hf k
  rw [e]; rfl

/-- A kernel's minimum-reduction over one axis, at `j`: the fold of `min` from the accumulator's value. -/
theorem multiReduction_min_single (src : FVec Ideal s φ) (acc : BitVec φ.bits) (h : s.Reduces [a] t)
    (hφ : FKind.Formats φ) (hacc : acc = FKind.minimumf.neutral φ hφ) (j : t.Idx) (n : ℕ) (hn : s.size a = n)
    (f : Fin n → EReal) (hf : ∀ k : Fin (s.size a), src (h.lift j k) = f (k.cast hn)) :
    multiReduction .minimumf [a] t src acc h hφ hacc j
      = (Finset.univ : Finset (Fin n)).fold min (Ideal.ofBits φ acc) f := by
  subst hn
  classical
  rw [multiReduction_minimumf_eq_fold, h.fold_filter_drop_single]
  have e : (src ∘ h.lift j) = f := funext fun k => hf k
  rw [e]; rfl

/-- A kernel's sum over one axis, at `j`: the sum of the caller's `f` over the axis's coordinates. -/
theorem multiReduction_add_single (src : FVec Ideal s φ) (acc : BitVec φ.bits) (h : s.Reduces [a] t)
    (hφ : FKind.Formats φ) (hacc : acc = FKind.add.neutral φ hφ) (j : t.Idx) (n : ℕ) (hn : s.size a = n)
    (f : Fin n → EReal) (hf : ∀ k : Fin (s.size a), src (h.lift j k) = f (k.cast hn)) :
    multiReduction .add [a] t src acc h hφ hacc j = ∑ k : Fin n, f k := by
  subst hn
  rw [Ideal.multiReduction_add_single]
  exact Finset.sum_congr rfl fun k _ => hf k

end Cert.LibAxisFolds
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.TileValue.lean ====
/-
  What one grid point of the kernel leaves in its output block, read at the ideal values: the eight runs of 512
  points added up from zero, scaled by 2⁻¹², times the weight.
-/
import proofs.«119240_j24790551233433_1_alg».proof.Proof.Gen.KernelIdeal.Frame
import proofs.«119240_j24790551233433_1_alg».proof.Proof.Spec
import proofs.«119240_j24790551233433_1_alg».proof.Proof.LibAxisFolds
import proofs.«119240_j24790551233433_1_alg».proof.Proof.LibPlainDot
import proofs.«119240_j24790551233433_1_alg».proof.Proof.LibColumnForms
import Idealize.ShloMosaic.Lib.ValueLayout

noncomputable section

namespace Cert.KernelIdeal.TileValue

open Cert.KernelIdeal Cert.KernelIdeal.Gen Idealize.ShloMosaic Idealize.ShloMosaic.ValueIdx

/-! ## The body's arithmetic in one vocabulary

The body treats the 4096 points of the first cloud in eight runs of 512. For each run it forms the 512 × 4096 matrix of
squared distances to the second cloud, takes each row's least entry and adds the 512 minima up. -/

section Terms

variable {F : FTy → Type} [FloatOps F]

/-- A run of 512 points as a 512 × 3 matrix. -/
def run (v : Vec F S1x512x3 .f32) : FVec F S512x3 .f32 := shapeCast S512x3 v shapeCasts_S1x512x3_S512x3

/-- The squared norms of a run's points. -/
def normSq (a : FVec F S512x3 .f32) : FVec F S512 .f32 :=
  multiReduction .add [1] S512 (mulf a a) 0x00000000#32 reduces_S512x3_S512 (.inl rfl) rfl

/-- The matrix |p_k|² + |q_j|² − 2·(p_k · q_j) of a run against the second cloud, given the run's squared norms `a2`,
    the second cloud transposed `bT` and its squared norms as a row `b2`. -/
def dists (a : FVec F S512x3 .f32) (a2 : FVec F S512 .f32) (bT : FVec F S3x4096 .f32) (b2 : FVec F S1x4096 .f32) :
    FVec F S512x4096 .f32 :=
  subf (addf (broadcastTo S512x4096 (shapeCast S512x1 a2 shapeCasts_S512_S512x1) broadcasts_S512x1_S512x4096)
      (broadcastTo S512x4096 b2 broadcasts_S1x4096_S512x4096))
    (mulf (broadcast S512x4096 (Scalar.ofBits .f32 0x40000000#32))
      (matmul dot_S512x3_S3x4096_S512x4096_1_0_0_1_n_n (some .fp32) a bT (constant S512x4096 .f32 0x00000000#32)))

/-- The sum over a run of each row's least entry. -/
def minSum (d : FVec F S512x4096 .f32) : FVec F S1 .f32 :=
  multiReduction .add [0] S1
    (shapeCast S512x1 (multiReduction .minimumf [1] S512 d 0x7F800000#32 reduces_S512x4096_S512 (.inl rfl) rfl) shapeCasts_S512_S512x1)
    0x00000000#32 reduces_S512x1_S1 (.inl rfl) rfl

/-- The same as a 1 × 1 matrix. -/
def minSum11 (d : FVec F S512x4096 .f32) : FVec F S1x1 .f32 := shapeCast S1x1 (minSum d) shapeCasts_S1_S1x1

theorem pay2_eq (v0 : Vec F S1x3x4096 .f32) : k0_pay2 v0 = shapeCast S3x4096 v0 shapeCasts_S1x3x4096_S3x4096 := rfl

theorem pay3_eq (v0 : Vec F S1x3x4096 .f32) :
    k0_pay3 v0 = shapeCast S1x4096 (multiReduction .add [0] S4096 (mulf (k0_pay2 v0) (k0_pay2 v0)) 0x00000000#32 reduces_S3x4096_S4096 (.inl rfl) rfl) shapeCasts_S4096_S1x4096 := rfl

theorem pay4_eq (v0 : Vec F S1x3x4096 .f32) (v6 : Vec F S1x512x3 .f32) :
    k0_pay4 v0 v6 = addf (broadcast S1x1 (Scalar.ofBits .f32 0x00000000#32))
      (minSum11 (dists (run v6) (normSq (run v6)) (k0_pay2 v0) (k0_pay3 v0))) := rfl

theorem pay5_eq (v0 : Vec F S1x3x4096 .f32) (v23 : Vec F S1x512x3 .f32) :
    k0_pay5 v0 v23 = minSum (dists (run v23) (normSq (run v23)) (k0_pay2 v0) (k0_pay3 v0)) := rfl

theorem pay6_eq (v1 : FVec F S3x4096 .f32) (v4 : FVec F S1x4096 .f32) (v22 : FVec F S1x1 .f32) (v37 : FVec F S1 .f32)
    (v40 v57 : Vec F S1x512x3 .f32) :
    k0_pay6 v1 v4 v22 v37 v40 v57
      = addf (addf (addf v22 (shapeCast S1x1 v37 shapeCasts_S1_S1x1)) (minSum11 (dists (run v40) (normSq (run v40)) v1 v4)))
          (minSum11 (dists (run v57) (normSq (run v57)) v1 v4)) := rfl

theorem pay7_eq (v74 : Vec F S1x512x3 .f32) : k0_pay7 v74 = run v74 := rfl

theorem pay8_eq (v74 : Vec F S1x512x3 .f32) : k0_pay8 v74 = normSq (run v74) := rfl

theorem pay9_eq (v1 : FVec F S3x4096 .f32) (v4 : FVec F S1x4096 .f32) (v73 : FVec F S1x1 .f32) (v75 : FVec F S512x3 .f32)
    (v77 : FVec F S512 .f32) (v91 : Vec F S1x512x3 .f32) :
    k0_pay9 v1 v4 v73 v75 v77 v91
      = addf (addf v73 (minSum11 (dists v75 v77 v1 v4))) (minSum11 (dists (run v91) (normSq (run v91)) v1 v4)) := rfl

theorem pay10_eq (v1 : FVec F S3x4096 .f32) (v4 : FVec F S1x4096 .f32) (v108 : Vec F S1x512x3 .f32) :
    k0_pay10 v1 v4 v108 = dists (run v108) (normSq (run v108)) v1 v4 := rfl

theorem pay1_eq (v1 : FVec F S3x4096 .f32) (v4 : FVec F S1x4096 .f32) (v107 : FVec F S1x1 .f32) (v119 : FVec F S512x4096 .f32)
    (v125 : Vec F S1x512x3 .f32) (v144 : Vec F S1x1x1 .f32) :
    k0_pay1 v1 v4 v107 v119 v125 v144
      = shapeCast S1x1x1
          (mulf (mulf (addf (addf v107 (minSum11 v119)) (minSum11 (dists (run v125) (normSq (run v125)) v1 v4)))
              (broadcast S1x1 (Scalar.ofBits .f32 0x39800000#32)))
            (shapeCast S1x1 v144 shapeCasts_S1x1x1_S1x1))
          shapeCasts_S1x1_S1x1x1 := rfl

end Terms

/-! ## The vocabulary read at an index, at the ideal values -/

section Values

/-- A run as a matrix reads the block's entry. -/
theorem run_apply (v : Vec Ideal S1x512x3 .f32) (k : Fin 512) (d : Fin 3) :
    run v (ix2 k d) = v (ix3 (0 : Fin 1) k d) :=
  shapeCast_1ab_ab_apply v shapeCasts_S1x512x3_S512x3 k d

/-- A point's squared norm is the sum of its coordinates' squares. -/
theorem normSq_apply (a : FVec Ideal S512x3 .f32) (k : Fin 512) :
    normSq a (ix1 k) = ∑ d : Fin 3, a (ix2 k d) * a (ix2 k d) :=
  Cert.LibAxisFolds.multiReduction_add_single (mulf a a) 0x00000000#32 reduces_S512x3_S512 (.inl rfl) rfl (ix1 k) 3 rfl
    (fun d => a (ix2 k d) * a (ix2 k d)) (fun d => by
      have e : reduces_S512x3_S512.lift (ix1 k) d = ix2 (n0 := 512) (n1 := 3) k (d.cast rfl) :=
        funext fun ax => Fin.ext (by match ax with | ⟨0, _⟩ => rfl | ⟨1, _⟩ => rfl)
      rw [mulf_apply, e]; rfl)

/-- An entry of the distance matrix: the two squared norms less twice the inner product. -/
theorem dists_apply (a : FVec Ideal S512x3 .f32) (a2 : FVec Ideal S512 .f32) (bT : FVec Ideal S3x4096 .f32)
    (b2 : FVec Ideal S1x4096 .f32) (k : Fin 512) (j : Fin 4096) :
    dists a a2 bT b2 (ix2 k j)
      = (a2 (ix1 k) + b2 (ix2 (0 : Fin 1) j)) - Cert.Chamfer.two * ∑ d : Fin 3, a (ix2 k d) * bT (ix2 d j) := by
  have h1 : broadcastTo S512x4096 (shapeCast S512x1 a2 shapeCasts_S512_S512x1) broadcasts_S512x1_S512x4096 (ix2 k j)
      = a2 (ix1 k) :=
    (ColumnForms.broadcastTo_a1_ac_apply _ broadcasts_S512x1_S512x4096 k j).trans
      (ColumnForms.shapeCast_a_a1_apply a2 shapeCasts_S512_S512x1 k 0)
  have h2 : broadcastTo S512x4096 b2 broadcasts_S1x4096_S512x4096 (ix2 k j) = b2 (ix2 (0 : Fin 1) j) :=
    broadcastTo_1b_ab_apply b2 broadcasts_S1x4096_S512x4096 k j
  have h3 : matmul dot_S512x3_S3x4096_S512x4096_1_0_0_1_n_n (some .fp32) a bT (constant S512x4096 .f32 0x00000000#32) (ix2 k j)
      = ∑ d : Fin 3, a (ix2 k d) * bT (ix2 d j) :=
    Cert.LibPlainDot.matmul_zero_apply dot_S512x3_S3x4096_S512x4096_1_0_0_1_n_n rfl rfl rfl rfl rfl rfl (some .fp32) a bT k j
  unfold dists
  rw [subf_apply, addf_apply, mulf_apply, broadcast_apply, h1, h2, h3]
  rfl

/-- The sum over a run of each row's least entry, the minimum folded from +∞. -/
theorem minSum_apply (D : FVec Ideal S512x4096 .f32) :
    minSum D (ix1 (0 : Fin 1))
      = ∑ k : Fin 512, (Finset.univ : Finset (Fin 4096)).fold min Cert.Chamfer.top (fun j => D (ix2 k j)) :=
  Cert.LibAxisFolds.multiReduction_add_single _ 0x00000000#32 reduces_S512x1_S1 (.inl rfl) rfl (ix1 (0 : Fin 1)) 512 rfl
    (fun k => (Finset.univ : Finset (Fin 4096)).fold min Cert.Chamfer.top (fun j => D (ix2 k j))) (fun k => by
      have e : reduces_S512x1_S1.lift (ix1 (0 : Fin 1)) k = ix2 (n0 := 512) (n1 := 1) (k.cast rfl) (0 : Fin 1) :=
        funext fun ax => Fin.ext (by match ax with | ⟨0, _⟩ => rfl | ⟨1, _⟩ => rfl)
      rw [e]
      refine (ColumnForms.shapeCast_a_a1_apply _ shapeCasts_S512_S512x1 (k.cast rfl) 0).trans ?_
      exact Cert.LibAxisFolds.multiReduction_min_single D 0x7F800000#32 reduces_S512x4096_S512 (.inl rfl) rfl
        (ix1 (k.cast rfl)) 4096 rfl (fun j => D (ix2 (k.cast rfl) j)) (fun j => by
          have e2 : reduces_S512x4096_S512.lift (ix1 (k.cast rfl)) j = ix2 (n0 := 512) (n1 := 4096) (k.cast rfl) (j.cast rfl) :=
            funext fun ax => Fin.ext (by match ax with | ⟨0, _⟩ => rfl | ⟨1, _⟩ => rfl)
          rw [e2]; rfl))

/-- As a 1 × 1 matrix it has the same one entry. -/
theorem minSum11_apply (D : FVec Ideal S512x4096 .f32) :
    minSum11 D (ix2 (0 : Fin 1) (0 : Fin 1)) = minSum D (ix1 (0 : Fin 1)) :=
  shapeCast_a_1a_apply (minSum D) shapeCasts_S1_S1x1 0 0

/-- The second cloud transposed: coordinates by rows. -/
theorem pay2_apply (x1 : Vec Ideal S1x3x4096 .f32) (d : Fin 3) (j : Fin 4096) :
    k0_pay2 x1 (ix2 d j) = x1 (ix3 (0 : Fin 1) d j) :=
  shapeCast_1ab_ab_apply x1 shapeCasts_S1x3x4096_S3x4096 d j

/-- The second cloud's squared norms, as a row. -/
theorem pay3_apply (x1 : Vec Ideal S1x3x4096 .f32) (j : Fin 4096) :
    k0_pay3 x1 (ix2 (0 : Fin 1) j) = ∑ d : Fin 3, x1 (ix3 (0 : Fin 1) d j) * x1 (ix3 (0 : Fin 1) d j) := by
  rw [pay3_eq]
  refine (shapeCast_a_1a_apply _ shapeCasts_S4096_S1x4096 0 j).trans ?_
  exact Cert.LibAxisFolds.multiReduction_add_single (mulf (k0_pay2 x1) (k0_pay2 x1)) 0x00000000#32 reduces_S3x4096_S4096
    (.inl rfl) rfl (ix1 j) 3 rfl (fun d => x1 (ix3 (0 : Fin 1) d j) * x1 (ix3 (0 : Fin 1) d j)) (fun d => by
      have e : reduces_S3x4096_S4096.lift (ix1 j) d = ix2 (n0 := 3) (n1 := 4096) (d.cast rfl) j :=
        funext fun ax => Fin.ext (by match ax with | ⟨0, _⟩ => rfl | ⟨1, _⟩ => rfl)
      rw [mulf_apply, e, pay2_apply]; rfl)

/-- A run's load: 512 consecutive points of the first cloud from point `o`. -/
theorem ld_run (x0 : Vec Ideal S1x4096x3 .f32) (o : Nat)
    (inb : ∀ a, (![0, o, 0] : Fin 3 → Nat) a + S1x512x3.size a ≤ S1x4096x3.size a) (k : Fin 512) (d : Fin 3)
    (n : Fin 4096) (hn : n.val = o + k.val) :
    View.ld x0 (Rect.unit (s := S1x4096x3) ![0, o, 0] S1x512x3.size inb) (ix3 (0 : Fin 1) k d) = x0 (ix3 (0 : Fin 1) n d) :=
  congrArg x0 (funext fun a => Fin.ext (by
    match a with
    | ⟨0, _⟩ => rfl
    | ⟨1, _⟩ => show o + 1 * k.val = n.val; rw [hn, Nat.one_mul]
    | ⟨2, _⟩ => show 0 + 1 * d.val = d.val; rw [Nat.one_mul, Nat.zero_add]))

end Values

/-! ## A run's term is the specification's sum over that run -/

section Assembly

variable (x0 : Vec Ideal S1x4096x3 .f32) (x1 : Vec Ideal S1x3x4096 .f32)

/-- For a block `v` holding the 512 points of the first cloud from point `o = 512·q`, the sum of the least squared
    distances of its points to the second cloud is the specification's `runSum` at `q`. -/
theorem runTerm (q : Fin 8) (o : Nat) (ho : o = 512 * q.val) (v : Vec Ideal S1x512x3 .f32)
    (hv : ∀ (k : Fin 512) (d : Fin 3) (n : Fin 4096), n.val = o + k.val → v (ix3 (0 : Fin 1) k d) = x0 (ix3 (0 : Fin 1) n d)) :
    minSum11 (dists (run v) (normSq (run v)) (k0_pay2 x1) (k0_pay3 x1)) (ix2 (0 : Fin 1) (0 : Fin 1))
      = Cert.Chamfer.runSum (fun k d => x0 (ix3 (0 : Fin 1) k d)) (fun j d => x1 (ix3 (0 : Fin 1) d j)) q := by
  subst ho
  rw [minSum11_apply, minSum_apply]
  unfold Cert.Chamfer.runSum Cert.Chamfer.nearest
  refine Finset.sum_congr rfl fun k _ => ?_
  refine congrArg (fun f => (Finset.univ : Finset (Fin 4096)).fold min Cert.Chamfer.top f) (funext fun j => ?_)
  have hk : ∀ d : Fin 3, run v (ix2 k d)
      = x0 (ix3 (0 : Fin 1) ⟨512 * q.val + k.val, by have := q.isLt; have := k.isLt; omega⟩ d) :=
    fun d => (run_apply v k d).trans (hv k d _ rfl)
  rw [dists_apply, normSq_apply, pay3_apply]
  unfold Cert.Chamfer.sqDist
  simp only [hk, pay2_apply]

/-- The same with the sum still a vector of one entry, cast to a 1 × 1 matrix where it is added. -/
theorem runTerm' (q : Fin 8) (o : Nat) (ho : o = 512 * q.val) (v : Vec Ideal S1x512x3 .f32)
    (hv : ∀ (k : Fin 512) (d : Fin 3) (n : Fin 4096), n.val = o + k.val → v (ix3 (0 : Fin 1) k d) = x0 (ix3 (0 : Fin 1) n d)) :
    shapeCast S1x1 (minSum (dists (run v) (normSq (run v)) (k0_pay2 x1) (k0_pay3 x1))) shapeCasts_S1_S1x1
        (ix2 (0 : Fin 1) (0 : Fin 1))
      = Cert.Chamfer.runSum (fun k d => x0 (ix3 (0 : Fin 1) k d)) (fun j d => x1 (ix3 (0 : Fin 1) d j)) q :=
  runTerm x0 x1 q o ho v hv

/-- The eight terms added to the zero word in order, scaled and weighted, read at the block's one entry. -/
theorem total_apply (t0 t1 t2 t3 t4 t5 t6 t7 : FVec Ideal S1x1 .f32) (w : Vec Ideal S1x1x1 .f32)
    (s0 s1 s2 s3 s4 s5 s6 s7 : EReal)
    (h0 : t0 (ix2 (0 : Fin 1) (0 : Fin 1)) = s0) (h1 : t1 (ix2 (0 : Fin 1) (0 : Fin 1)) = s1)
    (h2 : t2 (ix2 (0 : Fin 1) (0 : Fin 1)) = s2) (h3 : t3 (ix2 (0 : Fin 1) (0 : Fin 1)) = s3)
    (h4 : t4 (ix2 (0 : Fin 1) (0 : Fin 1)) = s4) (h5 : t5 (ix2 (0 : Fin 1) (0 : Fin 1)) = s5)
    (h6 : t6 (ix2 (0 : Fin 1) (0 : Fin 1)) = s6) (h7 : t7 (ix2 (0 : Fin 1) (0 : Fin 1)) = s7) :
    shapeCast S1x1x1
        (mulf (mulf (addf (addf (addf (addf (addf (addf (addf (addf (broadcast S1x1 (Scalar.ofBits .f32 0x00000000#32)) t0) t1) t2) t3) t4) t5) t6) t7)
            (broadcast S1x1 (Scalar.ofBits .f32 0x39800000#32)))
          (shapeCast S1x1 w shapeCasts_S1x1x1_S1x1))
        shapeCasts_S1x1_S1x1x1 (ix3 (0 : Fin 1) (0 : Fin 1) (0 : Fin 1))
      = ((((((((Cert.Chamfer.zero + s0) + s1) + s2) + s3) + s4) + s5) + s6) + s7) * Cert.Chamfer.cInv4096
          * w (ix3 (0 : Fin 1) (0 : Fin 1) (0 : Fin 1)) := by
  subst h0 h1 h2 h3 h4 h5 h6 h7
  refine (shapeCast_ab_1ab_apply _ shapeCasts_S1x1_S1x1x1 0 0 0).trans ?_
  rw [mulf_apply, shapeCast_1ab_ab_apply w shapeCasts_S1x1x1_S1x1 0 0]
  rfl

end Assembly

/-- The block's one entry: `x0` is the batch's first cloud (points by rows), `x1` the second cloud transposed
    (coordinates by rows), `x2` the weight. -/
theorem out_apply (x0 : Vec Ideal S1x4096x3 .f32) (x1 : Vec Ideal S1x3x4096 .f32) (x2 : Vec Ideal S1x1x1 .f32) :
    out0_3 (F := Ideal) x0 x1 x2 (ix3 (0 : Fin 1) (0 : Fin 1) (0 : Fin 1))
      = Cert.Chamfer.runsTimes (fun k d => x0 (ix3 (0 : Fin 1) k d)) (fun j d => x1 (ix3 (0 : Fin 1) d j))
          (x2 (ix3 (0 : Fin 1) (0 : Fin 1) (0 : Fin 1))) := by
  have hz : (![0, 0, 0] : Fin 3 → Nat) = fun _ => 0 := funext fun a => by fin_cases a <;> rfl
  unfold out0_3
  rw [View.canon_unit_zero hz]
  simp only [View.ld_unit_zero (S := S1x3x4096) hz, View.ld_unit_zero (S := S1x1x1) hz]
  rw [pay1_eq, pay9_eq, pay6_eq, pay4_eq, pay5_eq, pay7_eq, pay8_eq, pay10_eq]
  unfold Cert.Chamfer.runsTimes
  exact total_apply _ _ _ _ _ _ _ _ x2 _ _ _ _ _ _ _ _
    (runTerm x0 x1 0 0 rfl (View.ld x0 r0_1) (fun k d n hn => ld_run x0 0 _ k d n hn))
    (runTerm' x0 x1 1 512 rfl (View.ld x0 r0_2) (fun k d n hn => ld_run x0 512 _ k d n hn))
    (runTerm x0 x1 2 1024 rfl (View.ld x0 r0_3) (fun k d n hn => ld_run x0 1024 _ k d n hn))
    (runTerm x0 x1 3 1536 rfl (View.ld x0 r0_4) (fun k d n hn => ld_run x0 1536 _ k d n hn))
    (runTerm x0 x1 4 2048 rfl (View.ld x0 r0_5) (fun k d n hn => ld_run x0 2048 _ k d n hn))
    (runTerm x0 x1 5 2560 rfl (View.ld x0 r0_6) (fun k d n hn => ld_run x0 2560 _ k d n hn))
    (runTerm x0 x1 6 3072 rfl (View.ld x0 r0_7) (fun k d n hn => ld_run x0 3072 _ k d n hn))
    (runTerm x0 x1 7 3584 rfl (View.ld x0 r0_8) (fun k d n hn => ld_run x0 3584 _ k d n hn))

end Cert.KernelIdeal.TileValue

end
-- ==== Proof.Algebra.lean ====
/-
  The two forms of one batch's Chamfer loss agree on the extended reals.

  Three facts carry it. A sum over 4096 indices is the sum of its eight consecutive runs of 512, in any
  additive commutative monoid. The words of the literals denote 0, 4096 and 1/4096. And on every extended
  real, dividing by the nonzero real 4096 is multiplying by its reciprocal. Nothing is assumed finite.
-/
import proofs.«119240_j24790551233433_1_alg».proof.Proof.Spec

noncomputable section

namespace Cert.Chamfer

open Idealize.ShloMosaic

/-- A sum over 4096 indices is the sum over eight runs of the sums over each run's 512 indices: the index
    `512 * q + k` runs once over `Fin 4096` as `(q, k)` runs over `Fin 8 × Fin 512`. Addition need only be
    commutative and associative. -/
theorem sum_eq_sum_runs {M : Type*} [AddCommMonoid M] (f : Fin 4096 → M) :
    ∑ i : Fin 4096, f i =
      ∑ q : Fin 8, ∑ k : Fin 512,
        f ⟨512 * q.val + k.val, by have := q.isLt; have := k.isLt; omega⟩ := by
  let e : Fin 8 × Fin 512 ≃ Fin 4096 := finProdFinEquiv.trans (finCongr (by norm_num))
  rw [← Equiv.sum_comp e f, Fintype.sum_prod_type]
  refine Finset.sum_congr rfl fun q _ => Finset.sum_congr rfl fun k _ => ?_
  congr 1
  apply Fin.ext
  simp [e, finProdFinEquiv]
  omega

/-- The word `0x45800000` (exponent field 139, fraction 0) denotes 2¹² = 4096. -/
theorem c4096_eq : c4096 = ((4096 : ℝ) : EReal) := by
  simp [Ideal.ofBits, Ideal.ieee, -EReal.coe_mul]; norm_num

/-- The word `0x39800000` (exponent field 115, fraction 0) denotes 2⁻¹² = 1/4096. -/
theorem cInv4096_eq : cInv4096 = ((1 / 4096 : ℝ) : EReal) := by
  simp [Ideal.ofBits, Ideal.ieee, -EReal.coe_mul]; norm_num

variable (P Q : Fin 4096 → Fin 3 → EReal)

/-- The sum of all 4096 nearest squared distances is the sum of the eight run sums, added in order. -/
theorem sum_nearest_eq_runs :
    ∑ k : Fin 4096, nearest P Q k =
      ((((((runSum P Q 0 + runSum P Q 1) + runSum P Q 2) + runSum P Q 3) + runSum P Q 4) + runSum P Q 5)
        + runSum P Q 6) + runSum P Q 7 := by
  rw [sum_eq_sum_runs (fun k => nearest P Q k), Fin.sum_univ_eight]
  rfl

/-- The two forms of the batch's loss are one extended real. -/
theorem runsTimes_eq_meanTimes (w : EReal) : runsTimes P Q w = meanTimes P Q w := by
  unfold runsTimes meanTimes
  have h0 : (zero : EReal) = 0 := Ideal.ofBits_zero_f32
  rw [h0, zero_add, sum_nearest_eq_runs, c4096_eq, cInv4096_eq, Ideal.div_coe (by norm_num)]

end Cert.Chamfer

end
-- ==== Proof.Mean.lean ====
/-
  The mean over the eight batches, as both programs' host lines compute it: the eight per-batch losses are added up
  from the zero word and the sum is divided by the word of 8. Both programs end with these same two operations, so the
  certificate compares what goes INTO them and never opens them.
-/
import Idealize.ShloMosaic.PureOps.Ideal

noncomputable section

namespace Cert.Chamfer

open Idealize.ShloMosaic

/-- The host's sum over the eight batches from zero, divided by eight. -/
def batchMean (h : (⟨1, ![8]⟩ : Shape).ReducesTo [0] ⟨0, ![]⟩) (h0 : 0 < (⟨0, ![]⟩ : Shape).numel)
    (z : (⟨1, ![8]⟩ : Shape).Idx → EReal) : (⟨0, ![]⟩ : Shape).Idx → EReal :=
  Host.divf (F := Ideal) (φ := .f32)
    (Host.reduceAdd (F := Ideal) (φ := .f32) z (constant (F := Ideal) ⟨0, ![]⟩ .f32 0x00000000#32) h h0)
    (constant (F := Ideal) ⟨0, ![]⟩ .f32 0x41000000#32)

end Cert.Chamfer

end
-- ==== Proof.LibTrailingUnitAxes.lean ====
/-
  Two trailing unit axes added to or dropped from a vector by a shape cast, read at an index.

  A vector of length a and an a × 1 × 1 array hold the same a numbers in the same order: entry (i, 0, 0) of the one is
  entry i of the other. (The library has the casts of a LEADING unit axis; a per-batch scalar kept as a 1 × 1 block of an
  a × 1 × 1 array meets the trailing ones.) Stated over a literal-free extent `a`, with indices built by coordinates.
-/
import Idealize.ShloMosaic.Lib.ValueIdx
import Idealize.ShloMosaic.Lib.Pipeline.Value

noncomputable section

namespace Idealize.ShloMosaic.TrailingUnitAxes

open Idealize.ShloMosaic Idealize.ShloMosaic.ValueIdx

/-- An `[a]` array cast to `[a, 1, 1]` reads, at `(i, 0, 0)`, the operand at `i`. -/
theorem shapeCast_a_a11_apply {α : Type} {a : ℕ} (x : (⟨1, ![a]⟩ : Shape).Idx → α)
    (h : (⟨1, ![a]⟩ : Shape).ShapeCasts ⟨3, ![a, 1, 1]⟩) (i : Fin a) :
    shapeCast ⟨3, ![a, 1, 1]⟩ x h (ix3 i (0 : Fin 1) (0 : Fin 1)) = x (ix1 i) :=
  shapeCast_apply x h _ _ (by
    rw [Shape.rowMajor_val_three, Shape.rowMajor_val_one]
    show i.val = (i.val * 1 + 0) * 1 + 0
    omega)

/-- An `[a, 1, 1]` array cast to `[a]` reads, at `i`, the operand at `(i, 0, 0)`. -/
theorem shapeCast_a11_a_apply {α : Type} {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

end Idealize.ShloMosaic.TrailingUnitAxes

end
-- ==== Proof.KernelRun.lean ====
/-
  The kernel program's run, read: each batch's grid point leaves that batch's loss in the 8 × 1 × 1 result, and the
  host lines after the region take the mean over the eight batches.
-/
import proofs.«119240_j24790551233433_1_alg».proof.Proof.Gen.KernelIdeal.Frame
import proofs.«119240_j24790551233433_1_alg».proof.Proof.TileValue
import proofs.«119240_j24790551233433_1_alg».proof.Proof.Spec
import proofs.«119240_j24790551233433_1_alg».proof.Proof.Algebra
import proofs.«119240_j24790551233433_1_alg».proof.Proof.Mean
import proofs.«119240_j24790551233433_1_alg».proof.Proof.LibTrailingUnitAxes
import Idealize.ShloMosaic.Lib.Pipeline.Value
import Idealize.ShloMosaic.Lib.ValueLayout
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx Idealize.ShloMosaic.TrailingUnitAxes
open Idealize.ShloMosaic.Pipeline (Dat Cfg Window)

variable (m : (ℓ : Loc nD τ sig) → Buf (Elt Ideal) ℓ) (ρ : Dev nD → PrngReg)

/-! ## The arrays as the region finds them -/

/-- The second window's array is the second argument with its last two axes exchanged. -/
theorem V_v0 (c : Dev nD) :
    (V m c main_v0 : S8x3x4096.Idx → EReal)
      = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- The third window's array is the weights as an 8 × 1 × 1 array. -/
theorem V_v1 (c : Dev nD) :
    (V m c main_v1 : S8x1x1.Idx → EReal)
      = shapeCast S8x1x1 (m ((c : Thread nD τ).loc main_arg2)) shapeCasts_S8_S8x1x1 := by
  show StableHlo.after hostOps0 (fun b => m (c, b)) (Proc.devRef .tc main_v1) = _
  after_results
  rfl

/-! ## What each grid point writes back -/

/-- One batch's loss from the argument arrays: the two clouds are rows `b` of the first two arguments, the weight
    entry `b` of the third. -/
def lossOf (c : Dev nD) (b : Fin 8) : EReal :=
  Cert.Chamfer.meanTimes (fun k d => (m ((c : Thread nD τ).loc main_arg0) : S8x4096x3.Idx → EReal) (ix3 b k d))
    (fun j d => (m ((c : Thread nD τ).loc main_arg1) : S8x4096x3.Idx → EReal) (ix3 b j d))
    ((m ((c : Thread nD τ).loc main_arg2) : S8.Idx → EReal) (ix1 b))

/-- The region's result array: entry (b, 0, 0) is batch `b`'s loss. -/
def G (c : Dev nD) : S8x1x1.Idx → EReal := fun i => lossOf m c ⟨(i 0).val, (i 0).isLt⟩

/-- A point of the grid as a batch number. -/
def batchOf (t : Fin cfg0.N) : Fin 8 := ⟨t.val, lt_of_lt_of_eq t.isLt N_0⟩

/-- Every window's block index at grid point `t` is (t, 0, 0): decided over the eight points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The one index of a 1 × 1 × 1 block. -/
theorem idx111 (y : S1x1x1.Idx) : y = ix3 (0 : Fin 1) (0 : Fin 1) (0 : Fin 1) :=
  funext fun a => Fin.ext (by
    match a with
    | ⟨0, _⟩ => exact Nat.lt_one_iff.mp (y 0).isLt
    | ⟨1, _⟩ => exact Nat.lt_one_iff.mp (y 1).isLt
    | ⟨2, _⟩ => exact Nat.lt_one_iff.mp (y 2).isLt)

/-- The first window's block at point `t` is row `t` of the first argument. -/
theorem iblk0_apply (c : Dev nD) (t : Fin cfg0.N) (k : Fin 4096) (d : Fin 3) :
    iblk m c 0 t (ix3 (0 : Fin 1) k d)
      = (m ((c : Thread nD τ).loc main_arg0) : S8x4096x3.Idx → EReal) (ix3 (batchOf t) k d) := by
  obtain ⟨e0, e1, e2, -⟩ := idx_facts t
  show V m c main_arg0 (((cfg0.win 0).blk t).view.emb (ix3 (0 : Fin 1) k d)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * k.val = k.val; omega
  | ⟨2, _⟩ => show win0_0.index t (2 : Fin 3) * 3 + 1 * d.val = d.val; omega

/-- The second window's block at point `t` is row `t` of the second argument, transposed. -/
theorem iblk1_apply (c : Dev nD) (t : Fin cfg0.N) (d : Fin 3) (j : Fin 4096) :
    iblk m c 1 t (ix3 (0 : Fin 1) d j)
      = (m ((c : Thread nD τ).loc main_arg1) : S8x4096x3.Idx → EReal) (ix3 (batchOf t) j d) := by
  obtain ⟨-, -, -, e0, e1, e2, -⟩ := idx_facts t
  show V m c main_v0 (((cfg0.win 1).blk t).view.emb (ix3 (0 : Fin 1) d j)) = _
  have hi : ((cfg0.win 1).blk t).view.emb (ix3 (0 : Fin 1) d j) = ix3 (batchOf t) d j :=
    funext fun a => Fin.ext (by
      match a with
      | ⟨0, _⟩ => show win0_1.index t (0 : Fin 3) * 1 + 1 * 0 = t.val; omega
      | ⟨1, _⟩ => show win0_1.index t (1 : Fin 3) * 3 + 1 * d.val = d.val; omega
      | ⟨2, _⟩ => show win0_1.index t (2 : Fin 3) * 4096 + 1 * j.val = j.val; omega)
  rw [hi, V_v0]
  exact transpose_ix3_021_apply _ _ (batchOf t) d j

/-- The third window's block at point `t` is the weight of batch `t`. -/
theorem iblk2_apply (c : Dev nD) (t : Fin cfg0.N) :
    iblk m c 2 t (ix3 (0 : Fin 1) (0 : Fin 1) (0 : Fin 1))
      = (m ((c : Thread nD τ).loc main_arg2) : S8.Idx → EReal) (ix1 (batchOf t)) := by
  obtain ⟨-, -, -, -, -, -, e0, e1, e2, -⟩ := idx_facts t
  show V m c main_v1 (((cfg0.win 2).blk t).view.emb (ix3 (0 : Fin 1) (0 : Fin 1) (0 : Fin 1))) = _
  have hi : ((cfg0.win 2).blk t).view.emb (ix3 (0 : Fin 1) (0 : Fin 1) (0 : Fin 1)) = ix3 (batchOf t) (0 : Fin 1) (0 : Fin 1) :=
    funext fun a => Fin.ext (by
      match a with
      | ⟨0, _⟩ => show win0_2.index t (0 : Fin 3) * 1 + 1 * 0 = t.val; omega
      | ⟨1, _⟩ => show win0_2.index t (1 : Fin 3) * 1 + 1 * 0 = 0; omega
      | ⟨2, _⟩ => show win0_2.index t (2 : Fin 3) * 1 + 1 * 0 = 0; omega)
  rw [hi, V_v1]
  exact shapeCast_a_a11_apply _ shapeCasts_S8_S8x1x1 (batchOf t)

/-- The result array at an index whose first coordinate is `b`. -/
theorem G_apply (c : Dev nD) (i : S8x1x1.Idx) (b : Fin 8) (h : (i 0).val = b.val) : G m c i = lossOf m c b := by
  unfold G
  exact congrArg (lossOf m c) (Fin.ext h)

/-- WHAT POINT `t` WRITES BACK is block `t` of the result array `G`. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext j
  have key : ∀ y : S1x1x1.Idx, out0_3 (iblk m c 0 t) (iblk m c 1 t) (iblk m c 2 t) y
      = G m c (((cfg0.win 3).blk t).view.emb y) := by
    intro y
    obtain ⟨-, -, -, -, -, -, -, -, -, e0, e1, e2⟩ := idx_facts t
    rw [idx111 y, TileValue.out_apply, Cert.Chamfer.runsTimes_eq_meanTimes,
      G_apply m c _ (batchOf t) (by show win0_3.index t (0 : Fin 3) * 1 + 1 * 0 = t.val; omega)]
    unfold lossOf
    simp only [iblk0_apply, iblk1_apply, iblk2_apply]
  exact key j

/-- An index of the result array is in point `t`'s block iff each coordinate is in the block's range on its axis. -/
theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- Every entry (b, 0, 0) of the result array is in the block of point `b`. -/
theorem cover3 (i : S8x1x1.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 1 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- THE RESULT ARRAY after the run. -/
theorem final3 (c : Dev nD) : (dats m 0 c).arrAt 3 cfg0.N = G m c :=
  (dats m 0 c).arrAt_eq_of_cover 3 (G m c) (fun t _ => flushed3_eq m c t) (cover3)

/-! ## The host lines after the region, and the run -/

/-- The program's result: the host's mean of the eight per-batch losses. -/
theorem tail_v5 (c : Dev nD) :
    Pipeline.afterTail₀ cfgs (dats m) 0 (V0 m) [hostOps1] c main_v5
      = Cert.Chamfer.batchMean reducesTo_S8_S_d0 h_S_ (fun i => lossOf m c ⟨(i 0).val, (i 0).isLt⟩) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.tc.devRef main_v2)
      = G m c := (Pipeline.withArrays_arr spec0 launch0.win.arr_inj c _ _ 3).trans (final3 m c)
  rw [hA]
  show Cert.Chamfer.batchMean reducesTo_S8_S_d0 h_S_ (fun i => shapeCast S8 (G m c) shapeCasts_S8x1x1_S8 i) = _
  refine congrArg (Cert.Chamfer.batchMean reducesTo_S8_S_d0 h_S_) (funext fun i => ?_)
  obtain ⟨b, rfl⟩ : ∃ b : Fin 8, i = ix1 b := ⟨i 0, eq_ix1 i⟩
  exact (shapeCast_a11_a_apply (G m c) shapeCasts_S8x1x1_S8 b).trans (G_apply m c _ b rfl)

/-- The frame run re-posted: the program's result is the host's mean of the eight per-batch losses, the arguments
    unchanged. -/
theorem run : θ_run defs (onTc (τ := τ) (main (F := Ideal))) ⟨m, fun _ => 0, ρ⟩ fun r => ∀ c : Dev nD,
      r.2.mem ((c.tc : Thread nD τ).loc main_v5)
        = Cert.Chamfer.batchMean reducesTo_S8_S_d0 h_S_ (fun i => lossOf m c ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (tail_v5 m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.RunValue

end
-- ==== Proof.RefBridge.lean ====
/-
  The reference's per-batch value, read at the ideal values: for batch `b` the stage before the final mean is the
  mean of the nearest squared distances of the batch's two clouds, times the batch's weight.
-/
import proofs.«119240_j24790551233433_1_alg».proof.Proof.Gen.ReferenceIdeal.Read
import proofs.«119240_j24790551233433_1_alg».proof.Proof.Spec
import proofs.«119240_j24790551233433_1_alg».proof.Proof.LibAxisFolds

noncomputable section

namespace Cert.ReferenceIdeal.RefValue

open Cert.ReferenceIdeal Cert.ReferenceIdeal.Gen Idealize.ShloMosaic Idealize.ShloMosaic.ValueIdx

/-- Stage `%1` at `(b, k)`: the squared norm of point `k` of the first cloud of batch `b` (the sum starts from the zero word). -/
theorem v1_apply (x0 : (⟨S8x4096x3, .f32⟩ : BufTy).Contents (Elt Ideal)) (b : Fin 8) (k : Fin 4096) :
    Read.val_main_v1 (F := Ideal) x0 (ix2 b k) = ∑ d : Fin 3, x0 (ix3 b k d) * x0 (ix3 b k d) := by
  rw [Read.val_main_v1_apply, Read.val_main_cst_apply, Ideal.ofBits_def, Ideal.ofBits_zero_f32, zero_add]
  refine Finset.sum_congr rfl fun d _ => ?_
  have e : Read.idx_main_v1 (ix2 b k) d = ix3 b k d :=
    funext fun a => Fin.ext (by match a with | ⟨0, _⟩ => rfl | ⟨1, _⟩ => rfl | ⟨2, _⟩ => rfl)
  rw [Read.val_main_v0_apply, Ideal.mulf_def, e]

/-- Stage `%3` at `(b, j)`: the squared norm of point `j` of the second cloud of batch `b`. -/
theorem v3_apply (x1 : (⟨S8x4096x3, .f32⟩ : BufTy).Contents (Elt Ideal)) (b : Fin 8) (j : Fin 4096) :
    Read.val_main_v3 (F := Ideal) x1 (ix2 b j) = ∑ d : Fin 3, x1 (ix3 b j d) * x1 (ix3 b j d) := by
  rw [Read.val_main_v3_apply, Read.val_main_cst_0_apply, Ideal.ofBits_def, Ideal.ofBits_zero_f32, zero_add]
  refine Finset.sum_congr rfl fun d _ => ?_
  have e : Read.idx_main_v3 (ix2 b j) d = ix3 b j d :=
    funext fun a => Fin.ext (by match a with | ⟨0, _⟩ => rfl | ⟨1, _⟩ => rfl | ⟨2, _⟩ => rfl)
  rw [Read.val_main_v2_apply, Ideal.mulf_def, e]

/-- Stage `%4` at `(b, k, j)`: the inner product of point `k` of the first cloud and point `j` of the second. -/
theorem v4_apply (x0 x1 : (⟨S8x4096x3, .f32⟩ : BufTy).Contents (Elt Ideal)) (b : Fin 8) (k j : Fin 4096) :
    Read.val_main_v4 (F := Ideal) x0 x1 (ix3 b k j) = ∑ d : Fin 3, x0 (ix3 b k d) * x1 (ix3 b j d) := by
  rw [Read.val_main_v4_apply]
  refine Finset.sum_congr rfl fun d _ => ?_
  have el : Read.lidx_main_v4 (ix3 b k j) d = ix3 b k d :=
    funext fun a => Fin.ext (by match a with | ⟨0, _⟩ => rfl | ⟨1, _⟩ => rfl | ⟨2, _⟩ => rfl)
  have er : Read.ridx_main_v4 (ix3 b k j) d = ix3 b j d :=
    funext fun a => Fin.ext (by match a with | ⟨0, _⟩ => rfl | ⟨1, _⟩ => rfl | ⟨2, _⟩ => rfl)
  rw [el, er]

/-- Stage `%12` at `(b, k, j)`: the squared distance |p_k|² + |q_j|² − 2·(p_k · q_j) between the two points. -/
theorem v12_apply (x0 x1 : (⟨S8x4096x3, .f32⟩ : BufTy).Contents (Elt Ideal)) (b : Fin 8) (k j : Fin 4096) :
    Read.val_main_v12 (F := Ideal) x0 x1 (ix3 b k j)
      = Cert.Chamfer.sqDist (fun k d => x0 (ix3 b k d)) (fun j d => x1 (ix3 b j d)) k j := by
  have e7 : Read.idx_main_v5 (Read.idx_main_v7 (ix3 b k j)) = ix2 b k :=
    funext fun a => Fin.ext (by match a with | ⟨0, _⟩ => rfl | ⟨1, _⟩ => rfl)
  have e8 : Read.idx_main_v6 (Read.idx_main_v8 (ix3 b k j)) = ix2 b j :=
    funext fun a => Fin.ext (by match a with | ⟨0, _⟩ => rfl | ⟨1, _⟩ => rfl)
  rw [Read.val_main_v12_apply, Read.val_main_v9_apply, Read.val_main_v11_apply, Read.val_main_v7_apply,
    Read.val_main_v5_apply, Read.val_main_v8_apply, Read.val_main_v6_apply, Read.val_main_v10_apply,
    Read.val_main_cst_1_apply, e7, e8, v1_apply, v3_apply, v4_apply]
  rfl

/-- Stage `%13` at `(b, k)`: the minimum over the second cloud's points of the squared distances from point `k`,
    folded from +∞ (the reduction's initial word). -/
theorem v13_apply (x0 x1 : (⟨S8x4096x3, .f32⟩ : BufTy).Contents (Elt Ideal)) (b : Fin 8) (k : Fin 4096) :
    Read.val_main_v13 (F := Ideal) x0 x1 (ix2 b k)
      = Cert.Chamfer.nearest (fun k d => x0 (ix3 b k d)) (fun j d => x1 (ix3 b j d)) k := by
  have h : S8x4096x4096.Reduces [2] S8x4096 := by decide
  unfold Read.val_main_v13
  refine (Cert.LibAxisFolds.hostReduce_min_single (Read.val_main_v12 (F := Ideal) x0 x1)
    (Read.val_main_cst_2 (F := Ideal)) reducesTo_S8x4096x4096_S8x4096_d2 h h_S_ (ix2 b k) 4096 rfl
    (fun j => Cert.Chamfer.sqDist (fun k d => x0 (ix3 b k d)) (fun j d => x1 (ix3 b j d)) k j) (fun j => ?_)).trans ?_
  · have e : h.lift (ix2 b k) j = ix3 b k (j.cast rfl) :=
      funext fun a => Fin.ext (by match a with | ⟨0, _⟩ => rfl | ⟨1, _⟩ => rfl | ⟨2, _⟩ => rfl)
    rw [e]
    exact v12_apply x0 x1 b k _
  · rfl

/-- Stage `%21` of the reference at batch `b`: the batch's clouds are rows `b` of the two arguments. -/
theorem ref_batch (x0 x1 : (⟨S8x4096x3, .f32⟩ : BufTy).Contents (Elt Ideal)) (x2 : (⟨S8, .f32⟩ : BufTy).Contents (Elt Ideal)) (b : Fin 8) :
    Read.val_main_v21 (F := Ideal) x0 x1 x2 (ix1 b)
      = Cert.Chamfer.meanTimes (fun k d => x0 (ix3 b k d)) (fun j d => x1 (ix3 b j d)) (x2 (ix1 b)) := by
  have e14 : ∀ k : Fin 4096, Read.idx_main_v14 (ix1 b) k = ix2 b k := fun k =>
    funext fun a => Fin.ext (by match a with | ⟨0, _⟩ => rfl | ⟨1, _⟩ => rfl)
  have es : ∑ k : Fin 4096, Read.val_main_v13 (F := Ideal) x0 x1 (Read.idx_main_v14 (ix1 b) k)
      = ∑ k : Fin 4096, Cert.Chamfer.nearest (fun k d => x0 (ix3 b k d)) (fun j d => x1 (ix3 b j d)) k :=
    Finset.sum_congr rfl fun k _ => by rw [e14, v13_apply]
  rw [Read.val_main_v21_apply, Ideal.mulf_def, Read.val_main_v16_apply, Ideal.hostDivf_def, Read.val_main_v14_apply,
    Read.val_main_v15_apply, Read.val_main_cst_4_apply, Read.val_main_cst_3_apply, Ideal.ofBits_def, Ideal.ofBits_def,
    Ideal.ofBits_zero_f32, zero_add, es]
  rfl

end Cert.ReferenceIdeal.RefValue

end
-- ==== Proof.lean ====
/-
  The certificate of the Chamfer-loss kernel against its jnp reference, over the extended reals.

  Both programs compute, for each of eight batches, the mean over the 4096 points of the first cloud of the least
  squared distance to a point of the second cloud, times the batch's weight, and then the mean of the eight values.
  The reference forms the whole 4096 × 4096 matrix of squared distances |p|² + |q|² − 2·(p·q) per batch, takes each
  row's minimum, sums the 4096 minima and divides by 4096. The kernel treats the first cloud in eight runs of 512
  points against the second cloud transposed, adds the eight runs' sums of row minima from zero and multiplies by
  2⁻¹². The distance entries, the row minima and the weights are the same extended reals on both sides; a sum over
  4096 indices is the sum of its eight runs; and division by 4096 is multiplication by 2⁻¹² on every extended real.
  Both programs end with the same sum over the batches and the same division by 8, which is carried along unopened.
  No finiteness of the inputs is used.

  The kernel programs' frames and the reference's run are the generated ones; the kernel's value is read off its
  generated frame run (the region's result array from what each grid point writes back, then the host lines after
  the region).
-/
import proofs.«119240_j24790551233433_1_alg».proof.Defs
import proofs.«119240_j24790551233433_1_alg».proof.Proof.Gen.Kernel
import proofs.«119240_j24790551233433_1_alg».proof.Proof.Gen.Kernel.Skeleton
import proofs.«119240_j24790551233433_1_alg».proof.Proof.Gen.Kernel.Launch
import proofs.«119240_j24790551233433_1_alg».proof.Proof.Gen.Kernel.Points
import proofs.«119240_j24790551233433_1_alg».proof.Proof.Gen.Kernel.Frame
import proofs.«119240_j24790551233433_1_alg».proof.Proof.Gen.KernelIdeal
import proofs.«119240_j24790551233433_1_alg».proof.Proof.Gen.KernelIdeal.Skeleton
import proofs.«119240_j24790551233433_1_alg».proof.Proof.Gen.KernelIdeal.Launch
import proofs.«119240_j24790551233433_1_alg».proof.Proof.Gen.KernelIdeal.Points
import proofs.«119240_j24790551233433_1_alg».proof.Proof.Gen.KernelIdeal.Frame
import proofs.«119240_j24790551233433_1_alg».proof.Proof.Gen.ReferenceIdeal
import proofs.«119240_j24790551233433_1_alg».proof.Proof.Gen.ReferenceIdeal.Run
import proofs.«119240_j24790551233433_1_alg».proof.Proof.Gen.ReferenceIdeal.Read
import proofs.«119240_j24790551233433_1_alg».proof.Proof.Gen.Pre_finite_inputs
import proofs.«119240_j24790551233433_1_alg».proof.Proof.KernelRun
import proofs.«119240_j24790551233433_1_alg».proof.Proof.RefBridge
import proofs.«119240_j24790551233433_1_alg».proof.Proof.Mean
import Idealize.ShloMosaic.Adequacy
import Idealize.ShloMosaic.Init

noncomputable section

namespace Cert.Proof

open Idealize.ShloMosaic Idealize.SL.Sem Idealize.ShloMosaic.ValueIdx

/-- The reference's result is the host's mean of the eight per-batch values, each the mean of the nearest squared
    distances of the batch's clouds times its weight. -/
theorem ref_result (x0 x1 : (⟨Cert.ReferenceIdeal.S8x4096x3, .f32⟩ : BufTy).Contents (Elt Ideal))
    (x2 : (⟨Cert.ReferenceIdeal.S8, .f32⟩ : BufTy).Contents (Elt Ideal)) :
    Cert.ReferenceIdeal.Read.val_main_v23 (F := Ideal) x0 x1 x2
      = Cert.Chamfer.batchMean Cert.ReferenceIdeal.Gen.reducesTo_S8_S_d0 Cert.ReferenceIdeal.Gen.h_S_
          (fun i => Cert.Chamfer.meanTimes (fun k d => x0 (ix3 ⟨(i 0).val, (i 0).isLt⟩ k d))
            (fun j d => x1 (ix3 ⟨(i 0).val, (i 0).isLt⟩ j d)) (x2 (ix1 ⟨(i 0).val, (i 0).isLt⟩))) := by
  show Cert.Chamfer.batchMean _ _ (Cert.ReferenceIdeal.Read.val_main_v21 (F := Ideal) x0 x1 x2) = _
  refine congrArg (Cert.Chamfer.batchMean _ _) (funext fun i => ?_)
  obtain ⟨b, rfl⟩ : ∃ b : Fin 8, i = ix1 b := ⟨i 0, eq_ix1 i⟩
  exact Cert.ReferenceIdeal.RefValue.ref_batch x0 x1 x2 b

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the host's mean of the same eight per-batch values of arguments that agree. -/
theorem algebraic : Cert.algebraic_KernelIdeal_ReferenceIdeal := by
  intro m ρ m' ρ' _ hagree
  refine ⟨fun c => Cert.Chamfer.batchMean Cert.KernelIdeal.Gen.reducesTo_S8_S_d0 Cert.KernelIdeal.Gen.h_S_
      (fun i => Cert.KernelIdeal.RunValue.lossOf m c ⟨(i 0).val, (i 0).isLt⟩), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v23_eq _ _ _).trans (ref_result _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
